-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x17x128 : Shape := ⟨3, ![32768, 17, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S32768x17x128 : S_.BroadcastsInDim S32768x17x128 (![] : Fin 0 → Fin S32768x17x128.rank)
  reducesTo_S32768x17x128_S_d0_1_2 : S32768x17x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S32768x17x128 .f32) (main_arg1 : FVec F S128x128 .f32) (main_arg2 : FVec F S128 .f32) (main_arg3 : FVec F S128x16 .f32) (main_arg4 : FVec F S16 .f32) : IVec S_ 1 :=
  let main_v0 : FVec F S32768x17x128 .f32 := Host.absf main_arg0
  let main_cst : FVec F S_ .f32 := constant S_ .f32 0x7F800000#32
  let main_v1 : FVec F S32768x17x128 .f32 := broadcastInDim S32768x17x128 ![] bcast_S_S32768x17x128 main_cst
  let main_v2 : IVec S32768x17x128 1 := cmpf .olt main_v0 main_v1
  let main_c : IVec S_ 1 := constantI S_ 1 1#1
  let main_v3 : IVec S_ 1 := (fun x v => Host.reduce IntOp.andi x v reducesTo_S32768x17x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg4 main_v13 main_v16
-- ==== Kernel.lean ====
abbrev S32768x17x128 : Shape := ⟨3, ![32768, 17, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S32768x2 : Shape := ⟨2, ![32768, 2]⟩
abbrev S256x17x128 : Shape := ⟨3, ![256, 17, 128]⟩
abbrev S256x2 : Shape := ⟨2, ![256, 2]⟩
abbrev S4352x128 : Shape := ⟨2, ![4352, 128]⟩
abbrev S1x128 : Shape := ⟨2, ![1, 128]⟩
abbrev S4352x16 : Shape := ⟨2, ![4352, 16]⟩
abbrev S1x16 : Shape := ⟨2, ![1, 16]⟩
abbrev S256x17x16 : Shape := ⟨3, ![256, 17, 16]⟩
abbrev S256x1x16 : Shape := ⟨3, ![256, 1, 16]⟩
abbrev S256x16 : Shape := ⟨2, ![256, 16]⟩
abbrev S256 : Shape := ⟨1, ![256]⟩
abbrev S256x16x16 : Shape := ⟨3, ![256, 16, 16]⟩
abbrev S16x16 : Shape := ⟨2, ![16, 16]⟩
abbrev S1x16x16 : Shape := ⟨3, ![1, 16, 16]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x17x128, .f32⟩
  | .hbm, ⟨1, _⟩ => ⟨S128x128, .f32⟩
  | .hbm, ⟨2, _⟩ => ⟨S128, .f32⟩
  | .hbm, ⟨3, _⟩ => ⟨S128x16, .f32⟩
  | .hbm, ⟨4, _⟩ => ⟨S16, .f32⟩
  | .hbm, ⟨5, _⟩ => ⟨S32768x2, .f32⟩
  | .local _ .vmem, ⟨0, _⟩ => ⟨S256x17x128, .f32⟩
  | .local _ .vmem, ⟨1, _⟩ => ⟨S256x17x128, .f32⟩
  | .local _ .vmem, ⟨2, _⟩ => ⟨S128x128, .f32⟩
  | .local _ .vmem, ⟨3, _⟩ => ⟨S128, .f32⟩
  | .local _ .vmem, ⟨4, _⟩ => ⟨S128x16, .f32⟩
  | .local _ .vmem, ⟨5, _⟩ => ⟨S16, .f32⟩
  | .local _ .vmem, ⟨6, _⟩ => ⟨S256x2, .f32⟩
  | .local _ .vmem, ⟨7, _⟩ => ⟨S256x2, .f32⟩
  | _, _ => ⟨S32768x17x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x17x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S256x17x128_S256x17x128_0_0_0 : ∀ a, (![0, 0, 0] : Fin 3 → Nat) a + S256x17x128.size a ≤ S256x17x128.size a
  h_S256x17x128 : 0 < S256x17x128.numel
  bitsLt_bf16_f32 : FTy.bits .bf16 < FTy.bits .f32
  shapeCasts_S256x17x128_S4352x128 : S256x17x128.ShapeCasts S4352x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4352x128 : S1x128.Broadcasts S4352x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S4352x16 : S1x16.Broadcasts S4352x16
  shapeCasts_S4352x16_S256x17x16 : S4352x16.ShapeCasts S256x17x16
  slices_S256x17x16_o0_0_0_S256x1x16 : S256x17x16.Slices ![0, 0, 0] S256x1x16
  shapeCasts_S256x1x16_S256x16 : S256x1x16.ShapeCasts S256x16
  reduces_S256x16_S256 : S256x16.Reduces [1] S256
  slices_S256x17x16_o0_1_0_S256x16x16 : S256x17x16.Slices ![0, 1, 0] S256x16x16
  iota_S16x16_d0_w32 : S16x16.Iotas .tc 32 [0]
  iota_S16x16_d1_w32 : S16x16.Iotas .tc 32 [1]
  natLt_1_32 : 1 < 32
  shapeCasts_S16x16_S1x16x16 : S16x16.ShapeCasts S1x16x16
  broadcasts_S1x16x16_S256x16x16 : S1x16x16.Broadcasts S256x16x16
  reduces_S256x16x16_S256x16 : S256x16x16.Reduces [2] S256x16
  shapeCasts_S256_S256x1 : S256.ShapeCasts S256x1
  concatenates_S256x1_S256x1_S256x2_d1 : Shape.Concatenates [S256x1, S256x1] S256x2 1
  inb_S256x2_S256x2_0_0 : ∀ a, (![0, 0] : Fin 2 → Nat) a + S256x2.size a ≤ S256x2.size a
  h_S256x2 : 0 < S256x2.numel
  dot_S4352x128_S128x128_S4352x128_1_0_0_1_n_n_wf : DotDims.WF S4352x128 S128x128 S4352x128 [1] [0] [0] [1] [] []
  dot_S4352x128_S128x16_S4352x16_1_0_0_1_n_n_wf : DotDims.WF S4352x128 S128x16 S4352x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x17x128.size a ≤ S32768x17x128.size a
  hwx0_0 : ∀ i : grid0.Coords, EltTy.bits .f32 = 32 ∨ (Rect.block (s := S32768x17x128) S256x17x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S32768x2.size a
  hwx0_5 : ∀ i : grid0.Coords, EltTy.bits .f32 = 32 ∨ (Rect.block (s := S32768x2) S256x2.size (cc0_transform_5 i) (hinb0_5 i)).WholeWords (EltTy.packing .f32)

variable [Facts₀]

def dot_S4352x128_S128x128_S4352x128_1_0_0_1_n_n : DotDims S4352x128 S128x128 S4352x128 where
  lhsContracting := [1]
  rhsContracting := [0]
  lhsNonContracting := [0]
  rhsNonContracting := [1]
  lhsBatch := []
  rhsBatch := []
  wf := dot_S4352x128_S128x128_S4352x128_1_0_0_1_n_n_wf
def dot_S4352x128_S128x16_S4352x16_1_0_0_1_n_n : DotDims S4352x128 S128x16 S4352x16 where
  lhsContracting := [1]
  rhsContracting := [0]
  lhsNonContracting := [0]
  rhsNonContracting := [1]
  lhsBatch := []
  rhsBatch := []
  wf := dot_S4352x128_S128x16_S4352x16_1_0_0_1_n_n_wf

abbrev win0_0 : Pipeline.Window sig grid0 :=
  Pipeline.Window.ofSpec (Memref.whole main_arg0) S256x17x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x17x128 : Shape := ⟨3, ![32768, 17, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1x128 : Shape := ⟨3, ![1, 1, 128]⟩
abbrev S_ : Shape := ⟨0, ![]⟩
abbrev S32768x17x16 : Shape := ⟨3, ![32768, 17, 16]⟩
abbrev S1x1x16 : Shape := ⟨3, ![1, 1, 16]⟩
abbrev S32768x1x16 : Shape := ⟨3, ![32768, 1, 16]⟩
abbrev S32768x16 : Shape := ⟨2, ![32768, 16]⟩
abbrev S32768 : Shape := ⟨1, ![32768]⟩
abbrev S32768x16x16 : Shape := ⟨3, ![32768, 16, 16]⟩
abbrev S16x1 : Shape := ⟨2, ![16, 1]⟩
abbrev S16x2 : Shape := ⟨2, ![16, 2]⟩
abbrev S32768x1 : Shape := ⟨2, ![32768, 1]⟩
abbrev S32768x2 : Shape := ⟨2, ![32768, 2]⟩

abbrev nBuf : Space → Nat
  | .hbm => 60
  | .vmem => 0
  | .smem => 0
  | _ => 0

abbrev bufTy : (tb : Table) → Fin (tcTables nBuf tb) → BufTy
  | .hbm, ⟨0, _⟩ => ⟨S32768x17x128, .f32⟩
  | .hbm, ⟨1, _⟩ => ⟨S128x128, .f32⟩
  | .hbm, ⟨2, _⟩ => ⟨S128, .f32⟩
  | .hbm, ⟨3, _⟩ => ⟨S128x16, .f32⟩
  | .hbm, ⟨4, _⟩ => ⟨S16, .f32⟩
  | .hbm, ⟨5, _⟩ => ⟨S32768x17x128, .f32⟩
  | .hbm, ⟨6, _⟩ => ⟨S1x1x128, .f32⟩
  | .hbm, ⟨7, _⟩ => ⟨S32768x17x128, .f32⟩
  | .hbm, ⟨8, _⟩ => ⟨S32768x17x128, .f32⟩
  | .hbm, ⟨9, _⟩ => ⟨S_, .f32⟩
  | .hbm, ⟨10, _⟩ => ⟨S32768x17x128, .f32⟩
  | .hbm, ⟨11, _⟩ => ⟨S32768x17x128, .f32⟩
  | .hbm, ⟨12, _⟩ => ⟨S32768x17x16, .f32⟩
  | .hbm, ⟨13, _⟩ => ⟨S1x1x16, .f32⟩
  | .hbm, ⟨14, _⟩ => ⟨S32768x17x16, .f32⟩
  | .hbm, ⟨15, _⟩ => ⟨S32768x17x16, .f32⟩
  | .hbm, ⟨16, _⟩ => ⟨S_, .f32⟩
  | .hbm, ⟨17, _⟩ => ⟨S32768x17x16, .f32⟩
  | .hbm, ⟨18, _⟩ => ⟨S32768x17x16, .f32⟩
  | .hbm, ⟨19, _⟩ => ⟨S32768x17x16, .f32⟩
  | .hbm, ⟨20, _⟩ => ⟨S32768x17x16, .f32⟩
  | .hbm, ⟨21, _⟩ => ⟨S32768x17x16, .i1⟩
  | .hbm, ⟨22, _⟩ => ⟨S32768x17x16, .f32⟩
  | .hbm, ⟨23, _⟩ => ⟨S32768x17x16, .f32⟩
  | .hbm, ⟨24, _⟩ => ⟨S32768x17x16, .f32⟩
  | .hbm, ⟨25, _⟩ => ⟨S32768x17x16, .f32⟩
  | .hbm, ⟨26, _⟩ => ⟨S32768x17x16, .f32⟩
  | .hbm, ⟨27, _⟩ => ⟨S32768x17x16, .f32⟩
  | .hbm, ⟨28, _⟩ => ⟨S32768x17x16, .f32⟩
  | .hbm, ⟨29, _⟩ => ⟨S32768x17x16, .f32⟩
  | .hbm, ⟨30, _⟩ => ⟨S32768x1x16, .f32⟩
  | .hbm, ⟨31, _⟩ => ⟨S32768x16, .f32⟩
  | .hbm, ⟨32, _⟩ => ⟨S_, .f32⟩
  | .hbm, ⟨33, _⟩ => ⟨S32768, .f32⟩
  | .hbm, ⟨34, _⟩ => ⟨S32768x16x16, .f32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S_, .i32⟩
  | .hbm, ⟨45, _⟩ => ⟨S16, .i32⟩
  | .hbm, ⟨46, _⟩ => ⟨S16, .i1⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S16, .i32⟩
  | .hbm, ⟨51, _⟩ => ⟨S16x1, .i32⟩
  | .hbm, ⟨52, _⟩ => ⟨S16x1, .i32⟩
  | .hbm, ⟨53, _⟩ => ⟨S16x2, .i32⟩
  | .hbm, ⟨54, _⟩ => ⟨S32768x16, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S32768x1, .f32⟩
  | .hbm, ⟨59, _⟩ => ⟨S32768x2, .f32⟩
  | _, _ => ⟨S32768x17x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_call2_v0 : Ref sig .tc := ⟨.hbm, 35, rfl⟩
abbrev main_call2_v1 : Ref sig .tc := ⟨.hbm, 36, rfl⟩
abbrev main_call2_c : Ref sig .tc := ⟨.hbm, 37, rfl⟩
abbrev main_call2_v2 : Ref sig .tc := ⟨.hbm, 38, rfl⟩
abbrev main_call2_v3 : Ref sig .tc := ⟨.hbm, 39, rfl⟩
abbrev main_call2_c_0 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_c_1 : Ref sig .tc := ⟨.hbm, 44, rfl⟩
abbrev main_call2_v7 : Ref sig .tc := ⟨.hbm, 45, rfl⟩
abbrev main_call2_v8 : Ref sig .tc := ⟨.hbm, 46, rfl⟩
abbrev main_call2_c_2 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_v14 : Ref sig .tc := ⟨.hbm, 54, rfl⟩
abbrev main_cst_0 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32768x17x128_0_1_2 : S1x1x128.BroadcastsInDim S32768x17x128 (![0, 1, 2] : Fin 3 → Fin S32768x17x128.rank)
  bcast_S_S32768x17x128 : S_.BroadcastsInDim S32768x17x128 (![] : Fin 0 → Fin S32768x17x128.rank)
  bcast_S16_S1x1x16_2 : S16.BroadcastsInDim S1x1x16 (![2] : Fin 1 → Fin S1x1x16.rank)
  bcast_S1x1x16_S32768x17x16_0_1_2 : S1x1x16.BroadcastsInDim S32768x17x16 (![0, 1, 2] : Fin 3 → Fin S32768x17x16.rank)
  bcast_S_S32768x17x16 : S_.BroadcastsInDim S32768x17x16 (![] : Fin 0 → Fin S32768x17x16.rank)
  slices_S32768x17x16_S32768x1x16_0_0_0 : S32768x17x16.Slices ![0, 0, 0] S32768x1x16
  shapeCasts_S32768x1x16_S32768x16 : S32768x1x16.ShapeCasts S32768x16
  reducesTo_S32768x16_S32768_d1 : S32768x16.ReducesTo [1] S32768
  h_S_ : 0 < S_.numel
  slices_S32768x17x16_S32768x16x16_0_1_0 : S32768x17x16.Slices ![0, 1, 0] S32768x16x16
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  bcast_S32768_S32768x1_0 : S32768.BroadcastsInDim S32768x1 (![0] : Fin 1 → Fin S32768x1.rank)
  concatenates_S32768x1_S32768x1_S32768x2_d1 : Shape.Concatenates [S32768x1, S32768x1] S32768x2 1
  dot_S32768x17x128_S128x128_S32768x17x128_2_0_01_1_n_n_wf : DotDims.WF S32768x17x128 S128x128 S32768x17x128 [2] [0] [0, 1] [1] [] []
  dot_S32768x17x128_S128x16_S32768x17x16_2_0_01_1_n_n_wf : DotDims.WF S32768x17x128 S128x16 S32768x17x16 [2] [0] [0, 1] [1] [] []
  gather_S32768x16x16_S16x2_S32768x16_0_12_n_n_12_1_3276811_wf : GatherDims.WF S32768x16x16 S16x2 S32768x16 [0] [1, 2] [] [1, 2] [] 1 ![32768, 1, 1]

variable [Facts₀]

def dot_S32768x17x128_S128x128_S32768x17x128_2_0_01_1_n_n : DotDims S32768x17x128 S128x128 S32768x17x128 where
  lhsContracting := [2]
  rhsContracting := [0]
  lhsNonContracting := [0, 1]
  rhsNonContracting := [1]
  lhsBatch := []
  rhsBatch := []
  wf := dot_S32768x17x128_S128x128_S32768x17x128_2_0_01_1_n_n_wf
def dot_S32768x17x128_S128x16_S32768x17x16_2_0_01_1_n_n : DotDims S32768x17x128 S128x16 S32768x17x16 where
  lhsContracting := [2]
  rhsContracting := [0]
  lhsNonContracting := [0, 1]
  rhsNonContracting := [1]
  lhsBatch := []
  rhsBatch := []
  wf := dot_S32768x17x128_S128x16_S32768x17x16_2_0_01_1_n_n_wf
def gather_S32768x16x16_S16x2_S32768x16_0_12_n_n_12_1_3276811 : GatherDims S32768x16x16 S16x2 S32768x16 where
  offsetDims := [0]
  collapsedSliceDims := [1, 2]
  operandBatchingDims := []
  startIndicesBatchingDims := []
  startIndexMap := [1, 2]
  indexVectorDim := 1
  sliceSizes := ![32768, 1, 1]
  wf := gather_S32768x16x16_S16x2_S32768x16_0_12_n_n_12_1_3276811_wf

class Facts : Prop extends Facts₀ where

variable [Facts]
-- ==== Proof.Spec.lean ====
/-
  The function both programs compute, as extended reals, index by index.

  A batch element b carries 17 feature rows x[b, s, ·] of 128 entries. Every row goes through the same two-layer
  network: hidden unit h is relu(Σ_e x[b,s,e]·W1[e,h] + b1[h]); logit a is Σ_h hidden[h]·W2[h,a] + b2[a]; the flow
  is softplus(logit), written max(l, 0) + log(1 + exp(-|l|)). The result has two columns per batch element:
  column 1 is the outflow, the sum over a of the flows of row 0; column 0 is the inflow, the sum over i of flow i of
  row i + 1 (the diagonal of the 16 × 16 square the remaining rows form).
-/
import Idealize.ShloMosaic.PureOps.Ideal.Laws
import Idealize.ShloMosaic.Lib.ValueIdx

noncomputable section

namespace Cert.Flow

open Idealize.ShloMosaic Idealize.ShloMosaic.ValueIdx

/-- Hidden unit `h` of the first layer on a feature row `r`: the row's product with column `h` of `W1`, plus the bias,
    cut off below at zero. -/
def hidden (W1 : (⟨2, ![128, 128]⟩ : Shape).Idx → EReal) (b1 : (⟨1, ![128]⟩ : Shape).Idx → EReal)
    (r : Fin 128 → EReal) (h : Fin 128) : EReal :=
  max ((∑ e : Fin 128, r e * W1 (ix2 e h)) + b1 (ix1 h)) 0

/-- Logit `a` of the second layer on a feature row. -/
def logit (W1 : (⟨2, ![128, 128]⟩ : Shape).Idx → EReal) (b1 : (⟨1, ![128]⟩ : Shape).Idx → EReal)
    (W2 : (⟨2, ![128, 16]⟩ : Shape).Idx → EReal) (b2 : (⟨1, ![16]⟩ : Shape).Idx → EReal)
    (r : Fin 128 → EReal) (a : Fin 16) : EReal :=
  (∑ h : Fin 128, hidden W1 b1 r h * W2 (ix2 h a)) + b2 (ix1 a)

/-- softplus in its overflow-free form: max(l, 0) + log(1 + exp(-|l|)), with |l| = max(l, -l). -/
def softplus (l : EReal) : EReal := max l 0 + Ideal.log1p (Ideal.exp (-(max l (-l))))

/-- Flow `a` of a feature row. -/
def flow (W1 : (⟨2, ![128, 128]⟩ : Shape).Idx → EReal) (b1 : (⟨1, ![128]⟩ : Shape).Idx → EReal)
    (W2 : (⟨2, ![128, 16]⟩ : Shape).Idx → EReal) (b2 : (⟨1, ![16]⟩ : Shape).Idx → EReal)
    (r : Fin 128 → EReal) (a : Fin 16) : EReal :=
  softplus (logit W1 b1 W2 b2 r a)

/-- Row `i + 1` of seventeen. -/
abbrev succRow (i : Fin 16) : Fin 17 := ⟨i.val + 1, by omega⟩

/-- The two results of one batch element from its seventeen feature rows: at column 0 the inflow Σ_i flow_i(row i+1),
    at column 1 the outflow Σ_a flow_a(row 0). -/
def pair (W1 : (⟨2, ![128, 128]⟩ : Shape).Idx → EReal) (b1 : (⟨1, ![128]⟩ : Shape).Idx → EReal)
    (W2 : (⟨2, ![128, 16]⟩ : Shape).Idx → EReal) (b2 : (⟨1, ![16]⟩ : Shape).Idx → EReal)
    (rows : Fin 17 → Fin 128 → EReal) (q : Fin 2) : EReal :=
  if q.val = 0 then ∑ i : Fin 16, flow W1 b1 W2 b2 (rows (succRow i)) i
  else ∑ a : Fin 16, flow W1 b1 W2 b2 (rows 0) a

/-- Column 0 is the inflow. -/
theorem pair_zero (W1 : (⟨2, ![128, 128]⟩ : Shape).Idx → EReal) (b1 : (⟨1, ![128]⟩ : Shape).Idx → EReal)
    (W2 : (⟨2, ![128, 16]⟩ : Shape).Idx → EReal) (b2 : (⟨1, ![16]⟩ : Shape).Idx → EReal)
    (rows : Fin 17 → Fin 128 → EReal) (h : 0 < 2) :
    pair W1 b1 W2 b2 rows ⟨0, h⟩ = ∑ i : Fin 16, flow W1 b1 W2 b2 (rows (succRow i)) i := if_pos rfl

/-- Column 1 is the outflow. -/
theorem pair_one (W1 : (⟨2, ![128, 128]⟩ : Shape).Idx → EReal) (b1 : (⟨1, ![128]⟩ : Shape).Idx → EReal)
    (W2 : (⟨2, ![128, 16]⟩ : Shape).Idx → EReal) (b2 : (⟨1, ![16]⟩ : Shape).Idx → EReal)
    (rows : Fin 17 → Fin 128 → EReal) (h : 1 < 2) :
    pair W1 b1 W2 b2 rows ⟨1, h⟩ = ∑ a : Fin 16, flow W1 b1 W2 b2 (rows 0) a := if_neg (Nat.succ_ne_zero 0)

/-- The whole result array: batch element `j 0`, column `j 1`. Stated for any number of batch elements, so that it
    reads a block of the batch as well as the whole batch. -/
def result {B : Nat} (x : (⟨3, ![B, 17, 128]⟩ : Shape).Idx → EReal)
    (W1 : (⟨2, ![128, 128]⟩ : Shape).Idx → EReal) (b1 : (⟨1, ![128]⟩ : Shape).Idx → EReal)
    (W2 : (⟨2, ![128, 16]⟩ : Shape).Idx → EReal) (b2 : (⟨1, ![16]⟩ : Shape).Idx → EReal) :
    (⟨2, ![B, 2]⟩ : Shape).Idx → EReal :=
  fun j => pair W1 b1 W2 b2 (fun s e => x (ix3 (j 0) s e)) (j 1)

/-! ## The two spellings of softplus the programs use -/

/-- Nothing differs from itself, so a select on "l - 0 ≠ l - 0" takes its second branch; and l - 0 = l, 0 - a = -a. This is
    the spelling with the exponent written as a difference from zero. -/
theorem softplus_sub (p : CmpFPredicate) (hp : p = .one ∨ p = .une) (l : EReal) :
    Scalar.select (Ideal.cmp p (l - 0) (l - 0)) (l + 0) (max l 0 + Ideal.log1p (Ideal.exp (0 - max (l - 0) (-(l - 0)))))
      = softplus l := by
  have hc : Ideal.cmp p (l - 0) (l - 0) = 0#1 := by
    rcases hp with rfl | rfl <;> simp [Ideal.cmp]
  rw [hc, select_zero, sub_zero, zero_sub]
  rfl

/-- The spelling with the exponent written as a negation. -/
theorem softplus_neg (p : CmpFPredicate) (hp : p = .one ∨ p = .une) (l : EReal) :
    Scalar.select (Ideal.cmp p (l - 0) (l - 0)) (l + 0) (max l 0 + Ideal.log1p (Ideal.exp (-(max (l - 0) (-(l - 0))))))
      = softplus l := by
  have hc : Ideal.cmp p (l - 0) (l - 0) = 0#1 := by
    rcases hp with rfl | rfl <;> simp [Ideal.cmp]
  rw [hc, select_zero, sub_zero]
  rfl

/-! ## The diagonal of a square as a masked double sum -/

/-- Multiplying a 16 × 16 square by the identity pattern and summing everything leaves the sum of the diagonal: a
    product with 0 is 0 and with 1 the factor itself, on every extended real, so each inner sum keeps one term. -/
theorem sum_mask_diag (f : Fin 16 → Fin 16 → EReal) :
    ∑ i : Fin 16, ∑ j : Fin 16, f i j * (if i = j then (1 : EReal) else 0) = ∑ i : Fin 16, f i i := by
  refine Finset.sum_congr rfl fun i _ => ?_
  rw [Finset.sum_eq_single i]
  · rw [if_pos rfl, mul_one]
  · intro j _ hj
    rw [if_neg (fun h => hj h.symm), mul_zero]
  · intro h; exact absurd (Finset.mem_univ i) h

end Cert.Flow

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.KernelBlock.lean ====
/-
  What one grid point of the kernel writes, index by index.

  A block holds 256 batch elements. The body flattens their 17 feature rows into 4352 rows (row p·17 + s is row s of
  batch element p), runs both layers as matrix products into a zero accumulator — at the extended reals the sum over the
  contracted axis, the change of format the identity —, applies softplus elementwise, folds the rows back to
  [256, 17, 16], and stores two columns: the sum over a of the flows of row 0, and the double sum over (i, j) of
  flow j of row i + 1 times the identity pattern δ_ij, which is the sum of the diagonal.
-/
import proofs.«130150_j15925738733604_1_alg».proof.Proof.Gen.KernelIdeal.Value
import proofs.«130150_j15925738733604_1_alg».proof.Proof.Spec
import proofs.«130150_j15925738733604_1_alg».proof.Proof.LibPlainDot
import Idealize.ShloMosaic.Lib.Pipeline.Value
import Idealize.ShloMosaic.Lib.ValueIdx
import Idealize.ShloMosaic.Lib.StableHlo.Predicate
import Idealize.ShloMosaic.PureOps.Ideal.Laws

noncomputable section

namespace Cert.Flow.Kernel

open Cert.KernelIdeal Cert.KernelIdeal.Gen Idealize.ShloMosaic Idealize.ShloMosaic.TcCoe Idealize.ShloMosaic.ValueIdx

/-- Row `s` of batch element `p` among the 4352 flattened rows. -/
abbrev flatRow (p : Fin 256) (s : Fin 17) : Fin 4352 := ⟨p.val * 17 + s.val, by have := p.isLt; have := s.isLt; omega⟩

/-- The body's softplus, spelt with a select on "l - 0 ≠ l - 0" and the exponent 0 - |l - 0|, is softplus at every index. -/
theorem softplus_vec {S : Shape} (L : FVec Ideal S .f32) (i : S.Idx) :
    select (cmpf .one (subf L (broadcast S (FloatOps.ofBits .f32 0x00000000#32))) (subf L (broadcast S (FloatOps.ofBits .f32 0x00000000#32))))
      (addf L (broadcast S (FloatOps.ofBits .f32 0x00000000#32)))
      (addf (maximumf L (broadcast S (FloatOps.ofBits .f32 0x00000000#32)))
        (log1p (exp (subf (broadcast S (FloatOps.ofBits .f32 0x00000000#32)) (absf (subf L (broadcast S (FloatOps.ofBits .f32 0x00000000#32))))))))
      i = Flow.softplus (L i) := by
  show Scalar.select (Ideal.cmp .one (L i - Ideal.ofBits .f32 0x00000000#32) (L i - Ideal.ofBits .f32 0x00000000#32)) (L i + Ideal.ofBits .f32 0x00000000#32)
    (max (L i) (Ideal.ofBits .f32 0x00000000#32) + Ideal.log1p (Ideal.exp (Ideal.ofBits .f32 0x00000000#32 - max (L i - Ideal.ofBits .f32 0x00000000#32) (-(L i - Ideal.ofBits .f32 0x00000000#32))))) = _
  rw [Ideal.ofBits_zero_f32]
  exact Flow.softplus_sub .one (.inl rfl) (L i)

/-- The first layer at flattened row p·17 + s and unit h: the hidden unit of feature row (p, s). -/
theorem layer1_at (P0 : Vec Ideal S256x17x128 .f32) (P1 : Vec Ideal S128x128 .f32) (P2 : Vec Ideal S128 .f32)
    (p : Fin 256) (s : Fin 17) (h : Fin 128) :
    maximumf (F := Ideal)
      (addf
        (matmul dot_S4352x128_S128x128_S4352x128_1_0_0_1_n_n none
          (shapeCast S4352x128 (truncf .bf16 P0 bitsLt_bf16_f32) shapeCasts_S256x17x128_S4352x128)
          (truncf .bf16 P1 bitsLt_bf16_f32) (constant S4352x128 .f32 0x00000000#32))
        (broadcastTo S4352x128 (shapeCast S1x128 P2 shapeCasts_S128_S1x128) broadcasts_S1x128_S4352x128))
      (broadcast S4352x128 (FloatOps.ofBits .f32 0x00000000#32)) (ix2 (flatRow p s) h)
    = Flow.hidden P1 P2 (fun e => P0 (ix3 p s e)) h := by
  unfold Flow.hidden
  rw [maximumf_apply, addf_apply, broadcast_apply]
  refine congrArg₂ max (congrArg₂ (· + ·) ?_ ?_) Ideal.ofBits_zero_f32
  · refine (LibPlainDot.matmul_plain_zero none _ _ (ix2 (flatRow p s) h)).trans ?_
    refine Finset.sum_congr rfl fun e _ => congrArg (· * P1 (ix2 e h)) ?_
    exact shapeCast_apply _ shapeCasts_S256x17x128_S4352x128 (ix2 (flatRow p s) e) (ix3 p s e) (by
      rw [Shape.rowMajor_val_three, Shape.rowMajor_val_two]; rfl)
  · exact LibPlainDot.rowBroadcastTo_apply P2 shapeCasts_S128_S1x128 broadcasts_S1x128_S4352x128 (flatRow p s) h

/-- The second layer at a row and logit a, for any hidden rows `H`. -/
theorem layer2_at (H : FVec Ideal S4352x128 .f32) (P3 : Vec Ideal S128x16 .f32) (P4 : Vec Ideal S16 .f32)
    (r : Fin 4352) (a : Fin 16) :
    addf (F := Ideal)
      (matmul dot_S4352x128_S128x16_S4352x16_1_0_0_1_n_n none (truncf .bf16 H bitsLt_bf16_f32)
        (truncf .bf16 P3 bitsLt_bf16_f32) (constant S4352x16 .f32 0x00000000#32))
      (broadcastTo S4352x16 (shapeCast S1x16 P4 shapeCasts_S16_S1x16) broadcasts_S1x16_S4352x16) (ix2 r a)
    = (∑ h : Fin 128, H (ix2 r h) * P3 (ix2 h a)) + P4 (ix1 a) := by
  rw [addf_apply]
  refine congrArg₂ (· + ·) ?_ ?_
  · exact LibPlainDot.matmul_plain_zero none _ _ (ix2 r a)
  · exact LibPlainDot.rowBroadcastTo_apply P4 shapeCasts_S16_S1x16 broadcasts_S1x16_S4352x16 r a

/-- The flows of the block: entry (p, s, a) of the folded-back value is flow a of feature row (p, s). -/
theorem flows_at (P0 : Vec Ideal S256x17x128 .f32) (P1 : Vec Ideal S128x128 .f32) (P2 : Vec Ideal S128 .f32)
    (P3 : Vec Ideal S128x16 .f32) (P4 : Vec Ideal S16 .f32) (p : Fin 256) (s : Fin 17) (a : Fin 16) :
    k0_pay2 P0 P1 P2 P3 P4 (ix3 p s a) = Flow.flow P1 P2 P3 P4 (fun e => P0 (ix3 p s e)) a := by
  unfold k0_pay2
  rw [shapeCast_apply _ shapeCasts_S4352x16_S256x17x16 (ix3 p s a) (ix2 (flatRow p s) a) (by
    rw [Shape.rowMajor_val_two, Shape.rowMajor_val_three]; rfl)]
  refine (softplus_vec _ (ix2 (flatRow p s) a)).trans (congrArg Flow.softplus ?_)
  refine (layer2_at _ P3 P4 (flatRow p s) a).trans ?_
  unfold Flow.logit
  refine congrArg (· + P4 (ix1 a)) (Finset.sum_congr rfl fun h _ => congrArg (· * P3 (ix2 h a)) ?_)
  exact layer1_at P0 P1 P2 p s h

/-! ## The identity pattern -/

/-- The mask the body builds from two iotas — "row coordinate equals column coordinate", widened and converted — is 1 on the
    diagonal and 0 off it. -/
theorem mask_at (i j : Fin 16) : k0_pay5 (F := Ideal) (ix2 i j) = if i = j then (1 : EReal) else 0 := by
  unfold k0_pay5
  show ((((IntOp.cmpi .eq (iota .tc S16x16 32 [0] iota_S16x16_d0_w32 (ix2 i j)) (iota .tc S16x16 32 [1] iota_S16x16_d1_w32 (ix2 i j))).setWidth 32).toInt : ℝ) : EReal) = _
  rw [iota_single_apply, iota_single_apply]
  show ((((IntOp.cmpi .eq (BitVec.ofNat 32 i.val) (BitVec.ofNat 32 j.val)).setWidth 32).toInt : ℝ) : EReal) = _
  by_cases h : i = j
  · subst h
    rw [if_pos rfl, (StableHlo.Predicate.cmpi_eq_iff).2 rfl]
    have e1 : ((1#1 : BitVec 1).setWidth 32).toInt = 1 := by decide
    rw [e1]; simp
  · have hc : IntOp.cmpi .eq (BitVec.ofNat 32 i.val) (BitVec.ofNat 32 j.val) = 0#1 :=
      eq_zero_of_ne_one fun hc => h (Fin.ext (by
        have := congrArg BitVec.toNat ((StableHlo.Predicate.cmpi_eq_iff).1 hc)
        simp only [BitVec.toNat_ofNat] at this
        have hi := i.isLt; have hj := j.isLt
        omega))
    rw [if_neg h, hc]
    have e0 : ((0#1 : BitVec 1).setWidth 32).toInt = 0 := by decide
    rw [e0]; simp

/-! ## The two reductions -/

theorem lift2 (p : Fin 256) (i : Fin 16) : reduces_S256x16_S256.lift (ix1 p) i = ix2 p i :=
  funext fun a => Fin.ext (by match a with | ⟨0, _⟩ => rfl | ⟨1, _⟩ => rfl)

theorem lift3 (p : Fin 256) (i j : Fin 16) : reduces_S256x16x16_S256x16.lift (ix2 p i) j = ix3 p i j :=
  funext fun a => Fin.ext (by match a with | ⟨0, _⟩ => rfl | ⟨1, _⟩ => rfl | ⟨2, _⟩ => rfl)

/-- A sum along the second axis of a [256, 16] value, at batch element p. -/
theorem rowsum16 (v : FVec Ideal S256x16 .f32) (p : Fin 256) :
    multiReduction (F := Ideal) .add [1] S256 v 0x00000000#32 reduces_S256x16_S256 (.inl rfl) rfl (ix1 p) = ∑ a : Fin 16, v (ix2 p a) := by
  refine (Ideal.multiReduction_add_single v _ reduces_S256x16_S256 _ _ (ix1 p)).trans ?_
  exact Finset.sum_congr rfl fun a _ => congrArg v (lift2 p a)

/-- A sum along the last axis of a [256, 16, 16] value, at (p, i). -/
theorem lanesum16 (v : FVec Ideal S256x16x16 .f32) (p : Fin 256) (i : Fin 16) :
    multiReduction (F := Ideal) .add [2] S256x16 v 0x00000000#32 reduces_S256x16x16_S256x16 (.inl rfl) rfl (ix2 p i) = ∑ j : Fin 16, v (ix3 p i j) := by
  refine (Ideal.multiReduction_add_single v _ reduces_S256x16x16_S256x16 _ _ (ix2 p i)).trans ?_
  exact Finset.sum_congr rfl fun j _ => congrArg v (lift3 p i j)

/-- The masked double sum over rows 1 to 16 of batch element p, for any [256, 17, 16] value and any [16, 16] mask. -/
theorem inflow_gen (Fl : FVec Ideal S256x17x16 .f32) (M : FVec Ideal S16x16 .f32) (p : Fin 256) :
    multiReduction (F := Ideal) .add [1] S256
      (multiReduction .add [2] S256x16
        (mulf (extractStridedSlice S256x16x16 ![0, 1, 0] Fl slices_S256x17x16_o0_1_0_S256x16x16)
          (broadcastTo S256x16x16 (shapeCast S1x16x16 M shapeCasts_S16x16_S1x16x16) broadcasts_S1x16x16_S256x16x16))
        0x00000000#32 reduces_S256x16x16_S256x16 (.inl rfl) rfl)
      0x00000000#32 reduces_S256x16_S256 (.inl rfl) rfl (ix1 p)
    = ∑ i : Fin 16, ∑ j : Fin 16, Fl (ix3 p (Flow.succRow i) j) * M (ix2 i j) := by
  refine (rowsum16 _ p).trans (Finset.sum_congr rfl fun i _ => ?_)
  refine (lanesum16 _ p i).trans (Finset.sum_congr rfl fun j _ => ?_)
  rw [mulf_apply]
  refine congrArg₂ (· * ·) ?_ ?_
  · exact extractStridedSlice_apply ![0, 1, 0] Fl slices_S256x17x16_o0_1_0_S256x16x16 (ix3 p i j) (ix3 p (Flow.succRow i) j) (fun a => by
      match a with
      | ⟨0, _⟩ => show p.val = 0 + p.val; omega
      | ⟨1, _⟩ => show i.val + 1 = 1 + i.val; omega
      | ⟨2, _⟩ => show j.val = 0 + j.val; omega)
  · refine (broadcastTo_apply (shapeCast S1x16x16 M shapeCasts_S16x16_S1x16x16) broadcasts_S1x16x16_S256x16x16 (ix3 p i j) (ix3 (0 : Fin 1) i j) (fun a => by
      match a with
      | ⟨0, _⟩ => show (0 : Nat) = if (1 : Nat) = 1 then 0 else _; rw [if_pos rfl]
      | ⟨1, _⟩ => show i.val = if (16 : Nat) = 1 then 0 else i.val; rw [if_neg (by decide)]
      | ⟨2, _⟩ => show j.val = if (16 : Nat) = 1 then 0 else j.val; rw [if_neg (by decide)])).trans ?_
    exact shapeCast_apply M shapeCasts_S16x16_S1x16x16 (ix3 (0 : Fin 1) i j) (ix2 i j) (by
      rw [Shape.rowMajor_val_two, Shape.rowMajor_val_three]
      show i.val * 16 + j.val = (0 * 16 + i.val) * 16 + j.val
      omega)

/-- The sum over row 0 of batch element p, for any [256, 17, 16] value. -/
theorem outflow_gen (Fl : FVec Ideal S256x17x16 .f32) (p : Fin 256) :
    multiReduction (F := Ideal) .add [1] S256
      (shapeCast S256x16 (extractStridedSlice S256x1x16 ![0, 0, 0] Fl slices_S256x17x16_o0_0_0_S256x1x16) shapeCasts_S256x1x16_S256x16)
      0x00000000#32 reduces_S256x16_S256 (.inl rfl) rfl (ix1 p)
    = ∑ a : Fin 16, Fl (ix3 p (0 : Fin 17) a) := by
  refine (rowsum16 _ p).trans (Finset.sum_congr rfl fun a _ => ?_)
  refine (shapeCast_apply (extractStridedSlice S256x1x16 ![0, 0, 0] Fl slices_S256x17x16_o0_0_0_S256x1x16) shapeCasts_S256x1x16_S256x16 (ix2 p a) (ix3 p (0 : Fin 1) a) (by
    rw [Shape.rowMajor_val_two, Shape.rowMajor_val_three]
    show (p.val * 1 + 0) * 16 + a.val = p.val * 16 + a.val
    omega)).trans ?_
  exact extractStridedSlice_apply ![0, 0, 0] Fl slices_S256x17x16_o0_0_0_S256x1x16 (ix3 p (0 : Fin 1) a) (ix3 p (0 : Fin 17) a) (fun b => by
      match b with
      | ⟨0, _⟩ => show p.val = 0 + p.val; omega
      | ⟨1, _⟩ => show (0 : Nat) = 0 + 0; rfl
      | ⟨2, _⟩ => show a.val = 0 + a.val; omega)

/-- Column 0 of batch element p: rows 1 to 16 times the identity pattern, summed over both axes, is the sum of the diagonal. -/
theorem inflow_at (P0 : Vec Ideal S256x17x128 .f32) (P1 : Vec Ideal S128x128 .f32) (P2 : Vec Ideal S128 .f32)
    (P3 : Vec Ideal S128x16 .f32) (P4 : Vec Ideal S16 .f32) (p : Fin 256) :
    multiReduction (F := Ideal) .add [1] S256
      (multiReduction .add [2] S256x16
        (mulf (extractStridedSlice S256x16x16 ![0, 1, 0] (k0_pay2 P0 P1 P2 P3 P4) slices_S256x17x16_o0_1_0_S256x16x16)
          (broadcastTo S256x16x16 (shapeCast S1x16x16 (k0_pay5 (F := Ideal)) shapeCasts_S16x16_S1x16x16) broadcasts_S1x16x16_S256x16x16))
        0x00000000#32 reduces_S256x16x16_S256x16 (.inl rfl) rfl)
      0x00000000#32 reduces_S256x16_S256 (.inl rfl) rfl (ix1 p)
    = ∑ i : Fin 16, Flow.flow P1 P2 P3 P4 (fun e => P0 (ix3 p (Flow.succRow i) e)) i := by
  refine (inflow_gen (k0_pay2 P0 P1 P2 P3 P4) (k0_pay5 (F := Ideal)) p).trans ?_
  refine Eq.trans ?_ (Flow.sum_mask_diag fun i j => Flow.flow P1 P2 P3 P4 (fun e => P0 (ix3 p (Flow.succRow i) e)) j)
  refine Finset.sum_congr rfl fun i _ => Finset.sum_congr rfl fun j _ => ?_
  rw [flows_at P0 P1 P2 P3 P4 p (Flow.succRow i) j, mask_at i j]

/-- Column 1 of batch element p: the flows of row 0 summed. -/
theorem outflow_at (P0 : Vec Ideal S256x17x128 .f32) (P1 : Vec Ideal S128x128 .f32) (P2 : Vec Ideal S128 .f32)
    (P3 : Vec Ideal S128x16 .f32) (P4 : Vec Ideal S16 .f32) (p : Fin 256) :
    multiReduction (F := Ideal) .add [1] S256
      (shapeCast S256x16 (extractStridedSlice S256x1x16 ![0, 0, 0] (k0_pay2 P0 P1 P2 P3 P4) slices_S256x17x16_o0_0_0_S256x1x16) shapeCasts_S256x1x16_S256x16)
      0x00000000#32 reduces_S256x16_S256 (.inl rfl) rfl (ix1 p)
    = ∑ a : Fin 16, Flow.flow P1 P2 P3 P4 (fun e => P0 (ix3 p (0 : Fin 17) e)) a := by
  refine (outflow_gen (k0_pay2 P0 P1 P2 P3 P4) p).trans ?_
  exact Finset.sum_congr rfl fun a _ => flows_at P0 P1 P2 P3 P4 p (0 : Fin 17) a

/-! ## The block -/

/-- What a grid point leaves in its [256, 2] block is the result function of its own 256 batch elements. -/
theorem block_eq (P0 : Vec Ideal S256x17x128 .f32) (P1 : Vec Ideal S128x128 .f32) (P2 : Vec Ideal S128 .f32)
    (P3 : Vec Ideal S128x16 .f32) (P4 : Vec Ideal S16 .f32) (y : S256x2.Idx) :
    Cert.KernelIdeal.Value.E5 P0 P1 P2 P3 P4 y = Flow.result (B := 256) P0 P1 P2 P3 P4 y := by
  obtain ⟨p, q, rfl⟩ : ∃ (p : Fin 256) (q : Fin 2), y = ix2 p q := ⟨y 0, y 1, eq_ix2 y⟩
  unfold Flow.result
  match q with
  | ⟨0, hq⟩ =>
    refine Eq.trans ?_ (Flow.pair_zero P1 P2 P3 P4 _ hq).symm
    refine (shapeCast_apply _ shapeCasts_S256_S256x1 (Cert.KernelIdeal.Value.ix5_0 (ix2 p ⟨0, hq⟩)) (ix1 p) (by
      rw [Shape.rowMajor_val_one, Shape.rowMajor_val_two]
      show p.val = p.val * 1 + 0
      omega)).trans ?_
    exact inflow_at P0 P1 P2 P3 P4 p
  | ⟨1, hq⟩ =>
    refine Eq.trans ?_ (Flow.pair_one P1 P2 P3 P4 _ hq).symm
    refine (shapeCast_apply _ shapeCasts_S256_S256x1 (Cert.KernelIdeal.Value.ix5_0 (ix2 p ⟨1, hq⟩)) (ix1 p) (by
      rw [Shape.rowMajor_val_one, Shape.rowMajor_val_two]
      show p.val = p.val * 1 + 0
      omega)).trans ?_
    exact outflow_at P0 P1 P2 P3 P4 p

end Cert.Flow.Kernel

end
-- ==== Proof.KernelArray.lean ====
/-
  From blocks to the whole array.

  Grid point t stages batch elements 256·t … 256·t + 255 with both weight matrices and both bias vectors whole, and
  writes rows 256·t … 256·t + 255 of the [32768, 2] result. What it writes is the result function of its own block,
  and that function reads batch element p of block t where the whole-array function reads batch element 256·t + p;
  the 128 blocks tile the array, so the array ends holding the whole-array function.
-/
import proofs.«130150_j15925738733604_1_alg».proof.Proof.Gen.KernelIdeal.Value
import proofs.«130150_j15925738733604_1_alg».proof.Proof.KernelBlock
import Idealize.ShloMosaic.Lib.Pipeline.Value
import Idealize.ShloMosaic.Lib.ValueIdx

set_option maxRecDepth 16384

noncomputable section

namespace Cert.Flow.KernelRun

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result function of the five argument arrays as the region finds them. -/
abbrev whole (c : Dev nD) : S32768x2.Idx → EReal :=
  Flow.result (B := 32768) (V m c main_arg0) (V m c main_arg1) (V m c main_arg2) (V m c main_arg3) (V m c main_arg4)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 128 grid points: the feature window and the result window sit at the same
    block of the batch axis, every other block index is zero, and the batch block index stays below 128. -/
theorem idx_facts : ∀ t : Fin cfg0.N,
    win0_0.index t (0 : Fin 3) = win0_5.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 127 :=
  (by decide +kernel : ∀ t : Fin grid0.N, _)

/-- Every block of the batch axis is some point's. -/
theorem idx_onto : ∀ q : Fin 128, ∃ t : Fin cfg0.N, win0_5.index t = ![q.val, 0] :=
  (by decide +kernel : ∀ q : Fin 128, ∃ t : Fin grid0.N, win0_5.index t = ![q.val, 0])

/-- What point t writes back is block t of the whole-array result function. -/
theorem flushed_eq (c : Dev nD) (t : Fin cfg0.N) :
    (dats m 0 c).flushed 5 t = ((cfg0.win 5).blk t).view.read (Elt Ideal) (whole m c) := by
  rw [Cert.KernelIdeal.Value.flushed5]
  obtain ⟨e00, e01, e02, e10, e11, e20, e30, e31, e40, e51, hle⟩ := idx_facts t
  have w1 : View.ld (Val := Elt Ideal) (S := S128x128) (e' := .f32) (iblk m c 1 t) r0_1 = V m c main_arg1 := by
    rw [View.ld_unit_zero (S := S128x128) hz2]
    funext z
    show V m c main_arg1 (((cfg0.win 1).blk t).view.emb z) = V m c main_arg1 z
    refine congrArg (V m c main_arg1) (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  have w2 : View.ld (Val := Elt Ideal) (S := S128) (e' := .f32) (iblk m c 2 t) r0_2 = V m c main_arg2 := by
    rw [View.ld_unit_zero (S := S128) hz1]
    funext z
    show V m c main_arg2 (((cfg0.win 2).blk t).view.emb z) = V m c main_arg2 z
    refine congrArg (V m c main_arg2) (funext fun a => Fin.ext ?_)
    match a with
    | ⟨0, _⟩ => show win0_2.index t (0 : Fin 1) * 128 + 1 * (z 0).val = (z 0).val; omega
  have w3 : View.ld (Val := Elt Ideal) (S := S128x16) (e' := .f32) (iblk m c 3 t) r0_3 = V m c main_arg3 := by
    rw [View.ld_unit_zero (S := S128x16) hz2]
    funext z
    show V m c main_arg3 (((cfg0.win 3).blk t).view.emb z) = V m c main_arg3 z
    refine congrArg (V m c main_arg3) (funext fun a => Fin.ext ?_)
    match a with
    | ⟨0, _⟩ => show win0_3.index t (0 : Fin 2) * 128 + 1 * (z 0).val = (z 0).val; omega
    | ⟨1, _⟩ => show win0_3.index t (1 : Fin 2) * 16 + 1 * (z 1).val = (z 1).val; omega
  have w4 : View.ld (Val := Elt Ideal) (S := S16) (e' := .f32) (iblk m c 4 t) r0_4 = V m c main_arg4 := by
    rw [View.ld_unit_zero (S := S16) hz1]
    funext z
    show V m c main_arg4 (((cfg0.win 4).blk t).view.emb z) = V m c main_arg4 z
    refine congrArg (V m c main_arg4) (funext fun a => Fin.ext ?_)
    match a with
    | ⟨0, _⟩ => show win0_4.index t (0 : Fin 1) * 16 + 1 * (z 0).val = (z 0).val; omega
  funext y
  show out0_5 (iblk m c 0 t) (iblk m c 1 t) (iblk m c 2 t) (iblk m c 3 t) (iblk m c 4 t) y = whole m c (((cfg0.win 5).blk t).view.emb y)
  unfold out0_5
  rw [Cert.KernelIdeal.Value.canon5_eq, Kernel.block_eq, w1, w2, w3, w4, View.ld_unit_zero (S := S256x17x128) hz3]
  unfold whole Flow.result
  have hy1 : (((cfg0.win 5).blk t).view.emb y) 1 = y 1 := Fin.ext (by
    show win0_5.index t (1 : Fin 2) * 2 + 1 * (y 1).val = (y 1).val; omega)
  rw [hy1]
  refine congrArg (fun rows => Flow.pair (V m c main_arg1) (V m c main_arg2) (V m c main_arg3) (V m c main_arg4) rows (y 1)) ?_
  funext s e
  show V m c main_arg0 (((cfg0.win 0).blk t).view.emb (ix3 (y 0) s e)) = V m c main_arg0 (ix3 ((((cfg0.win 5).blk t).view.emb y) 0) s e)
  refine congrArg (V m c main_arg0) (funext fun a => Fin.ext ?_)
  match a with
  | ⟨0, _⟩ => show win0_0.index t (0 : Fin 3) * 256 + 1 * (y 0).val = win0_5.index t (0 : Fin 2) * 256 + 1 * (y 0).val; omega
  | ⟨1, _⟩ => show win0_0.index t (1 : Fin 3) * 17 + 1 * s.val = s.val; omega
  | ⟨2, _⟩ => show win0_0.index t (2 : Fin 3) * 128 + 1 * e.val = e.val; omega

/-- An index of the result array is in point t's block iff each coordinate is in the block's range on its axis. -/
theorem mem_blk (t : Fin cfg0.N) (i : S32768x2.Idx) :
    i ∈ ((cfg0.win 5).blk t).view.set ↔ ∀ a : Fin 2, win0_5.index t a * S256x2.size a ≤ (i a).val ∧ (i a).val < win0_5.index t a * S256x2.size a + S256x2.size a := by
  show i ∈ ((View.whole main_v0).slice (win0_5.rect t)).set ↔ _
  rw [View.set_slice_whole, Rect.mem_set_unit]
  exact Iff.rfl

/-- The 128 blocks tile the result array: row r lies in the block of the point whose batch block index is r / 256. -/
theorem cover (i : S32768x2.Idx) : ∃ t : Fin cfg0.N, (cfg0.win 5).flush t = true ∧ i ∈ ((cfg0.win 5).blk t).view.set := by
  have hi0 : (i 0).val < 32768 := (i 0).isLt
  have hi1 : (i 1).val < 2 := (i 1).isLt
  obtain ⟨t, ht⟩ := idx_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 2 ≤ (i 1).val ∧ (i 1).val < win0_5.index t (1 : Fin 2) * 2 + 2; omega

/-- The result array after the run is the result function of the arguments as launched. -/
theorem final (c : Dev nD) : (dats m 0 c).arrAt 5 cfg0.N = whole m c :=
  (dats m 0 c).arrAt_eq_of_cover 5 (whole m c) (fun t _ => flushed_eq m c t) cover

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Flow.KernelRun

end
-- ==== Proof.LibConcatPair.lean ====
/-
  A concatenation of two pieces with the pieces as plain arguments.

  `concatenate` takes its pieces as a list of (shape, payload) pairs, and a pair's payload is typed by the pair's shape; a
  rewriting pass therefore cannot rewrite a payload inside the list. `cat2` is the same function with the two payloads as
  ordinary arguments, and `cat2_eq` turns the list form into it, so that both payloads can be rewritten afterwards.
-/
import Idealize.ShloMosaic.PureOps

noncomputable section

namespace Cert.LibConcatPair

open Idealize.ShloMosaic

/-- The concatenation of two pieces `a`, `b` of shapes `s1`, `s2` along axis `ax` of the result shape `t`. -/
def cat2 {α : Type} (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

/-- The list form is `cat2` of the two payloads. -/
theorem cat2_eq {α : Type} (t : Shape) (ax : Fin t.rank) (s1 s2 : Shape) (h : Shape.Concatenates [s1, s2] t ax)
    (a : s1.Idx → α) (b : s2.Idx → α) :
    concatenate t ax [⟨s1, a⟩, ⟨s2, b⟩] h = cat2 t ax s1 s2 h a b := rfl

end Cert.LibConcatPair

end
-- ==== Proof.RefValue.lean ====
/-
  The reference program's result, index by index, is the two-layer flow network of the specification.

  Read from the last operation back: the result joins two columns; column 1 at batch element b is the sum over a of the
  flows of feature row 0, column 0 the sum over i of entry (i, i) of the 16 × 16 square formed by rows 1..16 — the
  program picks that entry with start indices (i, i) built from two position vectors, neither of which is negative,
  so the wrap-around branch of each is never taken and the clamp into [0, 15] changes nothing. Every flow is the
  softplus of a logit, every logit a product with W2 of the rectified hidden layer plus a bias.
-/
import proofs.«130150_j15925738733604_1_alg».proof.Proof.RefRead
import proofs.«130150_j15925738733604_1_alg».proof.Proof.Spec
import Idealize.ShloMosaic.Lib.ValueIdx
import Idealize.ShloMosaic.Lib.Pipeline.Value
import Idealize.ShloMosaic.Lib.StableHlo.Predicate
import Idealize.ShloMosaic.PureOps.Ideal.Laws

namespace Cert.Flow.Ref

open Cert.ReferenceIdeal Cert.ReferenceIdeal.Gen Cert.ReferenceIdeal.ReadP Idealize.ShloMosaic Idealize.ShloMosaic.ValueIdx
  Idealize.ShloMosaic.StableHlo

variable (x0 : (⟨S32768x17x128, .f32⟩ : BufTy).Contents (Elt Ideal)) (x1 : (⟨S128x128, .f32⟩ : BufTy).Contents (Elt Ideal))
  (x2 : (⟨S128, .f32⟩ : BufTy).Contents (Elt Ideal)) (x3 : (⟨S128x16, .f32⟩ : BufTy).Contents (Elt Ideal))
  (x4 : (⟨S16, .f32⟩ : BufTy).Contents (Elt Ideal))

/-! ## The network on one feature row -/

/-- The first layer at (b, s, h): the row's product with column h of W1, plus b1[h], cut off below at zero. -/
theorem hidden_apply (b : Fin 32768) (s : Fin 17) (h : Fin 128) :
    val_main_v4 (F := Ideal) x0 x1 x2 (ix3 b s h) = Cert.Flow.hidden x1 x2 (fun e => x0 (ix3 b s e)) h := by
  have e1 : ∀ k : Fin 128, lidx_main_v0 (ix3 b s h) k = ix3 b s k := fun k => funext fun a => Fin.ext (by
    match a with | ⟨0, _⟩ => rfl | ⟨1, _⟩ => rfl | ⟨2, _⟩ => rfl)
  have e2 : ∀ k : Fin 128, ridx_main_v0 (ix3 b s h) k = ix2 k h := fun k => funext fun a => Fin.ext (by
    match a with | ⟨0, _⟩ => rfl | ⟨1, _⟩ => rfl)
  have e3 : idx_main_v1 (idx_main_v2 (ix3 b s h)) = ix1 h := funext fun a => Fin.ext (by
    match a with | ⟨0, _⟩ => rfl)
  rw [val_main_v4_apply, val_main_v3_apply, val_main_v0_apply, val_main_v2_apply, val_main_v1_apply,
    val_main_call0_v0_apply, val_main_call0_cst_apply]
  simp only [e1, e2, e3, Ideal.maximumf_def, Ideal.addf_def, Ideal.ofBits_def, Ideal.ofBits_zero_f32]
  rfl

/-- The second layer at (b, s, a): the hidden layer's product with column a of W2, plus b2[a]. -/
theorem logit_apply (b : Fin 32768) (s : Fin 17) (a : Fin 16) :
    val_main_v8 (F := Ideal) x0 x1 x2 x3 x4 (ix3 b s a)
      = Cert.Flow.logit x1 x2 x3 x4 (fun e => x0 (ix3 b s e)) a := by
  have e1 : ∀ k : Fin 128, lidx_main_v5 (ix3 b s a) k = ix3 b s k := fun k => funext fun c => Fin.ext (by
    match c with | ⟨0, _⟩ => rfl | ⟨1, _⟩ => rfl | ⟨2, _⟩ => rfl)
  have e2 : ∀ k : Fin 128, ridx_main_v5 (ix3 b s a) k = ix2 k a := fun k => funext fun c => Fin.ext (by
    match c with | ⟨0, _⟩ => rfl | ⟨1, _⟩ => rfl)
  have e3 : idx_main_v6 (idx_main_v7 (ix3 b s a)) = ix1 a := funext fun c => Fin.ext (by
    match c with | ⟨0, _⟩ => rfl)
  rw [val_main_v8_apply, val_main_v5_apply, val_main_v7_apply, val_main_v6_apply]
  simp only [e1, e2, e3, hidden_apply, Ideal.addf_def]
  rfl

/-- The flow at (b, s, a) is the softplus of the logit: the program's select on "l - 0 ≠ l - 0" never takes its
    first branch. -/
theorem flow_apply (b : Fin 32768) (s : Fin 17) (a : Fin 16) :
    val_main_v9 (F := Ideal) x0 x1 x2 x3 x4 (ix3 b s a)
      = Cert.Flow.flow x1 x2 x3 x4 (fun e => x0 (ix3 b s e)) a := by
  simp only [val_main_v9_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, logit_apply]
  simp only [Ideal.addf_def, Ideal.subf_def, Ideal.maximumf_def, Ideal.hostUnary_exp_def, Ideal.hostUnary_log1p_def,
    Ideal.hostNegf_def, Ideal.hostAbsf_def, Ideal.negf_def, Ideal.ofBits_def, Ideal.ofBits_zero_f32]
  exact Cert.Flow.softplus_neg .une (Or.inr rfl) (Cert.Flow.logit x1 x2 x3 x4 (fun e => x0 (ix3 b s e)) a)

/-! ## Column 1: the flows of row 0, summed -/

theorem outflow_apply (b : Fin 32768) :
    val_main_v12 (F := Ideal) x0 x1 x2 x3 x4 (ix1 b)
      = ∑ a : Fin 16, Cert.Flow.flow x1 x2 x3 x4 (fun e => x0 (ix3 b 0 e)) a := by
  have e : ∀ k : Fin 16, idx_main_v10 (idx_main_v11 (idx_main_v12 (ix1 b) k)) = ix3 b 0 k := fun k =>
    funext fun c => Fin.ext (by
      have hb := b.isLt
      have hk := k.isLt
      match c with
      | ⟨0, _⟩ => show (b.val * 16 + k.val) / 16 = b.val; omega
      | ⟨1, _⟩ => rfl
      | ⟨2, _⟩ => show (b.val * 16 + k.val) % 16 = k.val; omega)
  rw [val_main_v12_apply, val_main_cst_apply]
  simp only [val_main_v11_apply, val_main_v10_apply, e, flow_apply, Ideal.ofBits_def, Ideal.ofBits_zero_f32, zero_add]

/-! ## The start indices of the diagonal -/

/-- A position below 16, as a 32-bit word, is its own value. -/
theorem word_toNat {n : Nat} (i : Fin n) (hn : n ≤ 16) : (BitVec.ofNat 32 i.val).toNat = i.val := by
  rw [BitVec.toNat_ofNat]
  exact Nat.mod_eq_of_lt (Nat.lt_of_lt_of_le i.isLt (Nat.le_trans hn (by decide)))

/-- Such a word is not negative. -/
theorem word_not_neg {n : Nat} (i : Fin n) (hn : n ≤ 16) : IntOp.cmpi .slt (BitVec.ofNat 32 i.val) 0#32 = 0#1 := by
  refine eq_zero_of_ne_one fun h => ?_
  have h31 : (BitVec.ofNat 32 i.val).toNat < 2 ^ 31 := by
    rw [word_toNat i hn]; exact Nat.lt_of_lt_of_le i.isLt (Nat.le_trans hn (by decide))
  have := (Predicate.slt_iff_toNat h31 (by decide)).mp h
  exact Nat.not_lt_zero _ this

/-- Read as a signed integer and clamped into [0, 15], it is still its own value. -/
theorem word_clamp (i : Fin 16) : min (BitVec.ofNat 32 i.val).toInt.toNat 15 = i.val := by
  rw [Predicate.toInt_ofNat_small i.val (Nat.lt_of_lt_of_le i.isLt (by decide))]
  have := i.isLt
  omega

/-- The first position vector after its wrap-around select: the position itself. -/
theorem sel0_apply (k : S16.Idx) : val_main_call2_v6 (F := Ideal) k = BitVec.ofNat 32 (k 0).val := by
  rw [val_main_call2_v6_apply, val_main_call2_v3_apply, val_main_call2_v0_apply, val_main_call2_v2_apply,
    val_main_call2_c_apply, word_not_neg (k 0) (Nat.le_refl 16), select_zero]

/-- The second position vector likewise. -/
theorem sel1_apply (k : S16.Idx) : val_main_call2_v11 (F := Ideal) k = BitVec.ofNat 32 (k 0).val := by
  rw [val_main_call2_v11_apply, val_main_call2_v8_apply, val_main_call2_v1_apply, val_main_call2_v7_apply,
    val_main_call2_c_1_apply, word_not_neg (k 0) (Nat.le_refl 16), select_zero]

/-- Column 0 of the start indices at row i is the word i. -/
theorem start_col0 (i : Fin 16) : val_main_call2_v14 (F := Ideal) (ix2 i 0) = BitVec.ofNat 32 i.val := by
  unfold val_main_call2_v14
  refine (concatenate_pair_apply_left (t := S16x2) (s₁ := S16x1) (s₂ := S16x1) 1 _ _ _ (ix2 i 0) rfl (ix2 i 0)
    (fun c => by match c with | ⟨0, _⟩ => rfl | ⟨1, _⟩ => rfl)).trans ?_
  rw [val_main_call2_v12_apply, sel0_apply]

/-- Column 1 of the start indices at row i is the word i as well. -/
theorem start_col1 (i : Fin 16) : val_main_call2_v14 (F := Ideal) (ix2 i 1) = BitVec.ofNat 32 i.val := by
  unfold val_main_call2_v14
  refine (concatenate_pair_apply_right (t := S16x2) (s₁ := S16x1) (s₂ := S16x1) 1 _ _ _ (ix2 i 1) rfl rfl (ix2 i 0)
    (fun c hc => by
      match c, hc with
      | ⟨0, _⟩, _ => rfl
      | ⟨1, _⟩, hc => exact absurd rfl hc) rfl).trans ?_
  rw [val_main_call2_v13_apply, sel1_apply]

/-! ## The gather reads the diagonal -/

/-- On the batch axis the operand index is the result's batch coordinate: no start index names that axis, and it is
    the one axis the slice keeps. -/
theorem gather_axis0 (b : Fin 32768) (i : Fin 16) (idx : IVec S16x2 32) :
    (gather_S32768x16x16_S16x2_S32768x16_0_12_n_n_12_1_3276811.operandIdx (ix2 b i) idx 0).val = b.val := by
  show gather_S32768x16x16_S16x2_S32768x16_0_12_n_n_12_1_3276811.start (ix2 b i) idx 0
    + gather_S32768x16x16_S16x2_S32768x16_0_12_n_n_12_1_3276811.batchCoord (ix2 b i) 0
    + gather_S32768x16x16_S16x2_S32768x16_0_12_n_n_12_1_3276811.offCoord (ix2 b i) 0 = _
  rw [GatherDims.batchCoord_eq_zero gather_S32768x16x16_S16x2_S32768x16_0_12_n_n_12_1_3276811 _ _ List.not_mem_nil]
  unfold GatherDims.start GatherDims.offCoord
  rw [dif_neg (show ¬(0 : Fin S32768x16x16.rank) ∈ gather_S32768x16x16_S16x2_S32768x16_0_12_n_n_12_1_3276811.startIndexMap by decide),
    dif_pos (show (0 : Fin S32768x16x16.rank) ∈ gather_S32768x16x16_S16x2_S32768x16_0_12_n_n_12_1_3276811.sKept by decide)]
  simp only [Nat.zero_add, Nat.add_zero]
  rfl

/-- On the first collapsed axis the operand index is the start index's first component at row i, clamped. -/
theorem gather_axis1 (b : Fin 32768) (i : Fin 16) (idx : IVec S16x2 32) :
    (gather_S32768x16x16_S16x2_S32768x16_0_12_n_n_12_1_3276811.operandIdx (ix2 b i) idx 1).val
      = min (idx (ix2 i 0)).toInt.toNat 15 := by
  show gather_S32768x16x16_S16x2_S32768x16_0_12_n_n_12_1_3276811.start (ix2 b i) idx 1
    + gather_S32768x16x16_S16x2_S32768x16_0_12_n_n_12_1_3276811.batchCoord (ix2 b i) 1
    + gather_S32768x16x16_S16x2_S32768x16_0_12_n_n_12_1_3276811.offCoord (ix2 b i) 1 = _
  rw [GatherDims.batchCoord_eq_zero gather_S32768x16x16_S16x2_S32768x16_0_12_n_n_12_1_3276811 _ _ List.not_mem_nil,
    GatherDims.offCoord_eq_zero gather_S32768x16x16_S16x2_S32768x16_0_12_n_n_12_1_3276811 _ _
      (fun h => ((GatherDims.mem_sKept _ _).mp h).1 (by decide))]
  simp only [Nat.add_zero]
  unfold GatherDims.start
  rw [dif_pos (show (1 : Fin S32768x16x16.rank) ∈ gather_S32768x16x16_S16x2_S32768x16_0_12_n_n_12_1_3276811.startIndexMap by decide)]
  have hsi : gather_S32768x16x16_S16x2_S32768x16_0_12_n_n_12_1_3276811.siIdx (ix2 b i)
      ⟨List.idxOf (1 : Fin S32768x16x16.rank) gather_S32768x16x16_S16x2_S32768x16_0_12_n_n_12_1_3276811.startIndexMap,
        List.idxOf_lt_length_iff.2 (by decide)⟩ = ix2 i 0 := by
    funext c; refine Fin.ext ?_
    match c with
    | ⟨0, _⟩ => rfl
    | ⟨1, _⟩ => rfl
  rw [hsi]
  rfl

/-- On the second collapsed axis, the start index's second component at row i, clamped. -/
theorem gather_axis2 (b : Fin 32768) (i : Fin 16) (idx : IVec S16x2 32) :
    (gather_S32768x16x16_S16x2_S32768x16_0_12_n_n_12_1_3276811.operandIdx (ix2 b i) idx 2).val
      = min (idx (ix2 i 1)).toInt.toNat 15 := by
  show gather_S32768x16x16_S16x2_S32768x16_0_12_n_n_12_1_3276811.start (ix2 b i) idx 2
    + gather_S32768x16x16_S16x2_S32768x16_0_12_n_n_12_1_3276811.batchCoord (ix2 b i) 2
    + gather_S32768x16x16_S16x2_S32768x16_0_12_n_n_12_1_3276811.offCoord (ix2 b i) 2 = _
  rw [GatherDims.batchCoord_eq_zero gather_S32768x16x16_S16x2_S32768x16_0_12_n_n_12_1_3276811 _ _ List.not_mem_nil,
    GatherDims.offCoord_eq_zero gather_S32768x16x16_S16x2_S32768x16_0_12_n_n_12_1_3276811 _ _
      (fun h => ((GatherDims.mem_sKept _ _).mp h).1 (by decide))]
  simp only [Nat.add_zero]
  unfold GatherDims.start
  rw [dif_pos (show (2 : Fin S32768x16x16.rank) ∈ gather_S32768x16x16_S16x2_S32768x16_0_12_n_n_12_1_3276811.startIndexMap by decide)]
  have hsi : gather_S32768x16x16_S16x2_S32768x16_0_12_n_n_12_1_3276811.siIdx (ix2 b i)
      ⟨List.idxOf (2 : Fin S32768x16x16.rank) gather_S32768x16x16_S16x2_S32768x16_0_12_n_n_12_1_3276811.startIndexMap,
        List.idxOf_lt_length_iff.2 (by decide)⟩ = ix2 i 1 := by
    funext c; refine Fin.ext ?_
    match c with
    | ⟨0, _⟩ => rfl
    | ⟨1, _⟩ => rfl
  rw [hsi]
  rfl

/-- The gather at (b, i) reads the square at (b, i, i). -/
theorem gather_apply (b : Fin 32768) (i : Fin 16) :
    val_main_v14 (F := Ideal) x0 x1 x2 x3 x4 (ix2 b i) = val_main_v13 (F := Ideal) x0 x1 x2 x3 x4 (ix3 b i i) := by
  unfold val_main_v14 Host.gather
  refine congrArg (val_main_v13 (F := Ideal) x0 x1 x2 x3 x4) (funext fun a => Fin.ext ?_)
  match a with
  | ⟨0, _⟩ => exact gather_axis0 b i _
  | ⟨1, _⟩ => exact (gather_axis1 b i _).trans (by rw [start_col0]; exact word_clamp i)
  | ⟨2, _⟩ => exact (gather_axis2 b i _).trans (by rw [start_col1]; exact word_clamp i)

/-! ## Column 0: the diagonal of rows 1..16, summed -/

theorem inflow_apply (b : Fin 32768) :
    val_main_v15 (F := Ideal) x0 x1 x2 x3 x4 (ix1 b)
      = ∑ i : Fin 16, Cert.Flow.flow x1 x2 x3 x4 (fun e => x0 (ix3 b (Cert.Flow.succRow i) e)) i := by
  have e : ∀ k : Fin 16, idx_main_v15 (ix1 b) k = ix2 b k := fun k => funext fun c => Fin.ext (by
    match c with | ⟨0, _⟩ => rfl | ⟨1, _⟩ => rfl)
  have e' : ∀ k : Fin 16, idx_main_v13 (ix3 b k k) = ix3 b (Cert.Flow.succRow k) k := fun k =>
    funext fun c => Fin.ext (by
      match c with
      | ⟨0, _⟩ => rfl
      | ⟨1, _⟩ => show 1 + k.val = k.val + 1; omega
      | ⟨2, _⟩ => rfl)
  rw [val_main_v15_apply, val_main_cst_0_apply]
  simp only [e, gather_apply, val_main_v13_apply, e', flow_apply, Ideal.ofBits_def, Ideal.ofBits_zero_f32, zero_add]

/-! ## The result -/

theorem ref_result (x0 : (⟨Cert.ReferenceIdeal.S32768x17x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x16, .f32⟩ : BufTy).Contents (Elt Ideal)) (x4 : (⟨Cert.ReferenceIdeal.S16, .f32⟩ : BufTy).Contents (Elt Ideal)) :
    Cert.ReferenceIdeal.ReadP.val_main_v18 (F := Ideal) x0 x1 x2 x3 x4 = Cert.Flow.result (B := 32768) x0 x1 x2 x3 x4 := by
  funext j
  obtain ⟨b, q, rfl⟩ : ∃ (b : Fin 32768) (q : Fin 2), j = ix2 b q := ⟨j 0, j 1, eq_ix2 j⟩
  unfold val_main_v18
  match q with
  | ⟨0, _⟩ =>
    refine (concatenate_pair_apply_left (t := S32768x2) (s₁ := S32768x1) (s₂ := S32768x1) 1 _ _ _ (ix2 b 0) rfl (ix2 b 0)
      (fun c => by match c with | ⟨0, _⟩ => rfl | ⟨1, _⟩ => rfl)).trans ?_
    have e : idx_main_v16 (ix2 b (0 : Fin 1)) = ix1 b := funext fun c => Fin.ext (by match c with | ⟨0, _⟩ => rfl)
    rw [val_main_v16_apply, e, inflow_apply]
    rfl
  | ⟨1, _⟩ =>
    refine (concatenate_pair_apply_right (t := S32768x2) (s₁ := S32768x1) (s₂ := S32768x1) 1 _ _ _ (ix2 b 1) rfl rfl (ix2 b 0)
      (fun c hc => by
        match c, hc with
        | ⟨0, _⟩, _ => rfl
        | ⟨1, _⟩, hc => exact absurd rfl hc) rfl).trans ?_
    have e : idx_main_v17 (ix2 b (0 : Fin 1)) = ix1 b := funext fun c => Fin.ext (by match c with | ⟨0, _⟩ => rfl)
    rw [val_main_v17_apply, e, outflow_apply]
    rfl

end Cert.Flow.Ref
-- ==== Proof.lean ====
/-
  Both programs compute, for every batch element, the inflow and the outflow of a two-layer flow network over its
  seventeen feature rows (Proof/Spec.lean). The kernel does it block by block: 256 batch elements at a time, the rows
  flattened, both layers as matrix products into zero, and the inflow as a double sum against the identity pattern
  (Proof/KernelBlock.lean, Proof/KernelArray.lean). The reference does it on whole arrays, taking the diagonal by a gather
  (Proof/RefValue.lean). At the extended reals a matrix product into zero is the sum over the contracted axis on both
  sides, a change of float format is the identity, a product with the pattern's 0 or 1 is 0 or the factor, and the two
  spellings of softplus agree; so the two result arrays are one function of the arguments, index by index. No law used
  needs the inputs to be finite. The idealization rewrote nothing, so the kernel's idealization is its own text.
-/
import proofs.«130150_j15925738733604_1_alg».proof.Defs
import proofs.«130150_j15925738733604_1_alg».proof.Proof.Gen.Kernel
import proofs.«130150_j15925738733604_1_alg».proof.Proof.Gen.Kernel.Skeleton
import proofs.«130150_j15925738733604_1_alg».proof.Proof.Gen.Kernel.Launch
import proofs.«130150_j15925738733604_1_alg».proof.Proof.Gen.Kernel.Points
import proofs.«130150_j15925738733604_1_alg».proof.Proof.Gen.Kernel.Frame
import proofs.«130150_j15925738733604_1_alg».proof.Proof.Gen.KernelIdeal
import proofs.«130150_j15925738733604_1_alg».proof.Proof.Gen.KernelIdeal.Skeleton
import proofs.«130150_j15925738733604_1_alg».proof.Proof.Gen.KernelIdeal.Launch
import proofs.«130150_j15925738733604_1_alg».proof.Proof.Gen.KernelIdeal.Points
import proofs.«130150_j15925738733604_1_alg».proof.Proof.Gen.KernelIdeal.Frame
import proofs.«130150_j15925738733604_1_alg».proof.Proof.Gen.KernelIdeal.Value
import proofs.«130150_j15925738733604_1_alg».proof.Proof.Gen.ReferenceIdeal
import proofs.«130150_j15925738733604_1_alg».proof.Proof.Gen.Pre_finite_inputs
import proofs.«130150_j15925738733604_1_alg».proof.Proof.KernelArray
import proofs.«130150_j15925738733604_1_alg».proof.Proof.RefRun
import proofs.«130150_j15925738733604_1_alg».proof.Proof.RefRead
import proofs.«130150_j15925738733604_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the five arguments, the kernel's result array and the reference's are the same function of
    them: the kernel's blocks assemble to `Flow.result` of its arguments, the reference's last stage is `Flow.result` of its own. -/
theorem algebraic : Cert.algebraic_KernelIdeal_ReferenceIdeal := by
  intro m ρ m' ρ' _ hagree
  refine ⟨fun c => Cert.Flow.KernelRun.whole m c, Cert.Flow.KernelRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v18_eq, Cert.Flow.Ref.ref_result,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
